-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S112x1 : Shape := ⟨2, ![112, 1]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel
  bcast_S_S112x1 : S_.BroadcastsInDim S112x1 (![] : Fin 0 → Fin S112x1.rank)
  reducesTo_S112x1_S_d0_1 : S112x1.ReducesTo [0, 1] S_

variable [Facts]

def fn {F : FTy → Type} [FloatOps F] (main_arg0 : FVec F S1048576x16 .f32) (main_arg1 : FVec F S112x1 .f32) (main_arg2 : FVec F S112x1 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S112x1 .f32 := Host.absf main_arg1
  let main_cst_0 : FVec F S_ .f32 := constant S_ .f32 0x7F800000#32
  let main_v5 : FVec F S112x1 .f32 := broadcastInDim S112x1 ![] bcast_S_S112x1 main_cst_0
  let main_v6 : IVec S112x1 1 := cmpf .olt main_v4 main_v5
  let main_c_1 : IVec S_ 1 := constantI S_ 1 1#1
  let main_v7 : IVec S_ 1 := (fun x v => Host.reduce IntOp.andi x v reducesTo_S112x1_S_d0_1 h_S_) main_v6 main_c_1
  let main_v8 : IVec S_ 1 := andi main_v3 main_v7
  let main_v9 : FVec F S112x1 .f32 := Host.absf main_arg2
  let main_cst_2 : FVec F S_ .f32 := constant S_ .f32 0x7F800000#32
  let main_v10 : FVec F S112x1 .f32 := broadcastInDim S112x1 ![] bcast_S_S112x1 main_cst_2
  let main_v11 : IVec S112x1 1 := cmpf .olt main_v9 main_v10
  let main_c_3 : IVec S_ 1 := constantI S_ 1 1#1
  let main_v12 : IVec S_ 1 := (fun x v => Host.reduce IntOp.andi x v reducesTo_S112x1_S_d0_1 h_S_) main_v11 main_c_3
  let main_v13 : IVec S_ 1 := andi main_v8 main_v12
  main_v13
-- ==== Kernel.lean ====
abbrev S1048576x16 : Shape := ⟨2, ![1048576, 16]⟩
abbrev S112x1 : Shape := ⟨2, ![112, 1]⟩
abbrev S1048576x2 : Shape := ⟨2, ![1048576, 2]⟩
abbrev S4096x16 : Shape := ⟨2, ![4096, 16]⟩
abbrev S4096x2 : Shape := ⟨2, ![4096, 2]⟩
abbrev S4096x112 : Shape := ⟨2, ![4096, 112]⟩
abbrev S4096x1 : Shape := ⟨2, ![4096, 1]⟩

abbrev nBuf : Space → Nat
  | .hbm => 4
  | .vmem => 8
  | .smem => 0
  | _ => 0

abbrev bufTy : (tb : Table) → Fin (tcTables nBuf tb) → BufTy
  | .hbm, ⟨0, _⟩ => ⟨S1048576x16, .f32⟩
  | .hbm, ⟨1, _⟩ => ⟨S112x1, .f32⟩
  | .hbm, ⟨2, _⟩ => ⟨S112x1, .f32⟩
  | .hbm, ⟨3, _⟩ => ⟨S1048576x2, .f32⟩
  | .local _ .vmem, ⟨0, _⟩ => ⟨S4096x16, .f32⟩
  | .local _ .vmem, ⟨1, _⟩ => ⟨S4096x16, .f32⟩
  | .local _ .vmem, ⟨2, _⟩ => ⟨S112x1, .f32⟩
  | .local _ .vmem, ⟨3, _⟩ => ⟨S112x1, .f32⟩
  | .local _ .vmem, ⟨4, _⟩ => ⟨S4096x2, .f32⟩
  | .local _ .vmem, ⟨5, _⟩ => ⟨S4096x2, .f32⟩
  | .local _ .vmem, ⟨6, _⟩ => ⟨S4096x112, .f32⟩
  | .local _ .vmem, ⟨7, _⟩ => ⟨S4096x112, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S112x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S112x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x16_S4096x16_0_0 : ∀ a, (![0, 0] : Fin 2 → Nat) a + S4096x16.size a ≤ S4096x16.size a
  h_S4096x16 : 0 < S4096x16.numel
  inb_S4096x112_S4096x16_0_0 : ∀ a, (![0, 0] : Fin 2 → Nat) a + S4096x16.size a ≤ S4096x112.size a
  shapeCasts_S4096x16_S4096x16 : S4096x16.ShapeCasts S4096x16
  inb_S4096x112_S4096x16_0_16 : ∀ a, (![0, 16] : Fin 2 → Nat) a + S4096x16.size a ≤ S4096x112.size a
  inb_S4096x112_S4096x16_0_32 : ∀ a, (![0, 32] : Fin 2 → Nat) a + S4096x16.size a ≤ S4096x112.size a
  inb_S4096x112_S4096x16_0_48 : ∀ a, (![0, 48] : Fin 2 → Nat) a + S4096x16.size a ≤ S4096x112.size a
  inb_S4096x112_S4096x16_0_64 : ∀ a, (![0, 64] : Fin 2 → Nat) a + S4096x16.size a ≤ S4096x112.size a
  inb_S4096x112_S4096x16_0_80 : ∀ a, (![0, 80] : Fin 2 → Nat) a + S4096x16.size a ≤ S4096x112.size a
  inb_S4096x112_S4096x16_0_96 : ∀ a, (![0, 96] : Fin 2 → Nat) a + S4096x16.size a ≤ S4096x112.size a
  inb_S4096x112_S4096x112_0_0 : ∀ a, (![0, 0] : Fin 2 → Nat) a + S4096x112.size a ≤ S4096x112.size a
  h_S4096x112 : 0 < S4096x112.numel
  shapeCasts_S4096x112_S4096x112 : S4096x112.ShapeCasts S4096x112
  inb_S112x1_S112x1_0_0 : ∀ a, (![0, 0] : Fin 2 → Nat) a + S112x1.size a ≤ S112x1.size a
  h_S112x1 : 0 < S112x1.numel
  bitsLt_bf16_f32 : FTy.bits .bf16 < FTy.bits .f32
  concatenates_S4096x1_S4096x1_S4096x2_d1 : Shape.Concatenates [S4096x1, S4096x1] S4096x2 1
  inb_S4096x2_S4096x2_0_0 : ∀ a, (![0, 0] : Fin 2 → Nat) a + S4096x2.size a ≤ S4096x2.size a
  h_S4096x2 : 0 < S4096x2.numel
  dot_S4096x112_S112x1_S4096x1_1_0_0_1_n_n_wf : DotDims.WF S4096x112 S112x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S1048576x16.size a
  hwx0_0 : ∀ i : grid0.Coords, EltTy.bits .f32 = 32 ∨ (Rect.block (s := S1048576x16) S4096x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S112x1.size a ≤ S112x1.size a
  hwx0_1 : ∀ i : grid0.Coords, EltTy.bits .f32 = 32 ∨ (Rect.block (s := S112x1) S112x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S112x1.size a ≤ S112x1.size a
  hwx0_2 : ∀ i : grid0.Coords, EltTy.bits .f32 = 32 ∨ (Rect.block (s := S112x1) S112x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S1048576x2.size a
  hwx0_3 : ∀ i : grid0.Coords, EltTy.bits .f32 = 32 ∨ (Rect.block (s := S1048576x2) S4096x2.size (cc0_transform_3 i) (hinb0_3 i)).WholeWords (EltTy.packing .f32)

variable [Facts₀]

def dot_S4096x112_S112x1_S4096x1_1_0_0_1_n_n : DotDims S4096x112 S112x1 S4096x1 where
  lhsContracting := [1]
  rhsContracting := [0]
  lhsNonContracting := [0]
  rhsNonContracting := [1]
  lhsBatch := []
  rhsBatch := []
  wf := dot_S4096x112_S112x1_S4096x1_1_0_0_1_n_n_wf

abbrev win0_0 : Pipeline.Window sig grid0 :=
  Pipeline.Window.ofSpec (Memref.whole main_arg0) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S112x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S112x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x16 : Shape := ⟨2, ![1048576, 16]⟩
abbrev S112x1 : Shape := ⟨2, ![112, 1]⟩
abbrev S_ : Shape := ⟨0, ![]⟩
abbrev S1048576x112 : Shape := ⟨2, ![1048576, 112]⟩
abbrev S1048576x1 : Shape := ⟨2, ![1048576, 1]⟩
abbrev S1048576x2 : Shape := ⟨2, ![1048576, 2]⟩

abbrev nBuf : Space → Nat
  | .hbm => 24
  | .vmem => 0
  | .smem => 0
  | _ => 0

abbrev bufTy : (tb : Table) → Fin (tcTables nBuf tb) → BufTy
  | .hbm, ⟨0, _⟩ => ⟨S1048576x16, .f32⟩
  | .hbm, ⟨1, _⟩ => ⟨S112x1, .f32⟩
  | .hbm, ⟨2, _⟩ => ⟨S112x1, .f32⟩
  | .hbm, ⟨3, _⟩ => ⟨S1048576x16, .f32⟩
  | .hbm, ⟨4, _⟩ => ⟨S1048576x16, .f32⟩
  | .hbm, ⟨5, _⟩ => ⟨S1048576x16, .f32⟩
  | .hbm, ⟨6, _⟩ => ⟨S1048576x16, .f32⟩
  | .hbm, ⟨7, _⟩ => ⟨S1048576x16, .f32⟩
  | .hbm, ⟨8, _⟩ => ⟨S1048576x16, .f32⟩
  | .hbm, ⟨9, _⟩ => ⟨S1048576x16, .f32⟩
  | .hbm, ⟨10, _⟩ => ⟨S1048576x16, .f32⟩
  | .hbm, ⟨11, _⟩ => ⟨S_, .f32⟩
  | .hbm, ⟨12, _⟩ => ⟨S1048576x16, .f32⟩
  | .hbm, ⟨13, _⟩ => ⟨S1048576x16, .f32⟩
  | .hbm, ⟨14, _⟩ => ⟨S_, .f32⟩
  | .hbm, ⟨15, _⟩ => ⟨S1048576x16, .f32⟩
  | .hbm, ⟨16, _⟩ => ⟨S1048576x16, .f32⟩
  | .hbm, ⟨17, _⟩ => ⟨S1048576x112, .f32⟩
  | .hbm, ⟨18, _⟩ => ⟨S1048576x1, .f32⟩
  | .hbm, ⟨19, _⟩ => ⟨S1048576x112, .f32⟩
  | .hbm, ⟨20, _⟩ => ⟨S1048576x112, .f32⟩
  | .hbm, ⟨21, _⟩ => ⟨S1048576x1, .f32⟩
  | .hbm, ⟨22, _⟩ => ⟨S1048576x1, .f32⟩
  | .hbm, ⟨23, _⟩ => ⟨S1048576x2, .f32⟩
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S_S1048576x16 : S_.BroadcastsInDim S1048576x16 (![] : Fin 0 → Fin S1048576x16.rank)
  concatenates_S1048576x16_S1048576x16_S1048576x16_S1048576x16_S1048576x16_S1048576x16_S1048576x16_S1048576x112_d1 : Shape.Concatenates [S1048576x16, S1048576x16, S1048576x16, S1048576x16, S1048576x16, S1048576x16, S1048576x16] S1048576x112 1
  concatenates_S1048576x1_S1048576x1_S1048576x2_d1 : Shape.Concatenates [S1048576x1, S1048576x1] S1048576x2 1
  dot_S1048576x112_S112x1_S1048576x1_1_0_0_1_n_n_wf : DotDims.WF S1048576x112 S112x1 S1048576x1 [1] [0] [0] [1] [] []

variable [Facts₀]

def dot_S1048576x112_S112x1_S1048576x1_1_0_0_1_n_n : DotDims S1048576x112 S112x1 S1048576x1 where
  lhsContracting := [1]
  rhsContracting := [0]
  lhsNonContracting := [0]
  rhsNonContracting := [1]
  lhsBatch := []
  rhsBatch := []
  wf := dot_S1048576x112_S112x1_S1048576x1_1_0_0_1_n_n_wf

class Facts : Prop extends Facts₀ where

variable [Facts]
-- ==== Proof.BodyStore.lean ====
/-
  What the kernel body leaves in the output block, as a term of the three input blocks.

  The body writes the seven maps of the `x` block side by side into one 4096 × 112 buffer (seven stores, each a
  4096 × 16 column slice at column offset 0, 16, …, 96), reads that buffer back whole, writes the logarithm of its absolute
  value into a second buffer and reads that back, and stores ONE value over the whole output block: the two contractions
  of those two buffers with the weight blocks, the second one exponentiated, laid side by side. So the output block is that
  one stored value, with the first buffer's contents the overlay of the seven column slices.
-/
import proofs.«138635_j43276090474799_1_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]

/-- The offsets `(0, 0)` are the zero offsets. -/
theorem off00 : (![0, 0] : Fin 2 → Nat) = fun _ => 0 := funext fun a => by fin_cases a <;> rfl

/-- The seven column slices of the feature buffer, last stored first: slice `q` sits at column offset `16 q` and holds
    map `q` of the `x` block. -/
def featPieces (x0 : Vec F S4096x16 .f32) : List (View.Piece (Elt F) S4096x112 .f32) :=
  [⟨Rect.unit (s := S4096x112) ![0, 96] S4096x16.size inb_S4096x112_S4096x16_0_96, k0_pay9 x0⟩,
   ⟨Rect.unit (s := S4096x112) ![0, 80] S4096x16.size inb_S4096x112_S4096x16_0_80, k0_pay8 x0⟩,
   ⟨Rect.unit (s := S4096x112) ![0, 64] S4096x16.size inb_S4096x112_S4096x16_0_64, k0_pay7 x0⟩,
   ⟨Rect.unit (s := S4096x112) ![0, 48] S4096x16.size inb_S4096x112_S4096x16_0_48, k0_pay6 x0⟩,
   ⟨Rect.unit (s := S4096x112) ![0, 32] S4096x16.size inb_S4096x112_S4096x16_0_32, k0_pay5 x0⟩,
   ⟨Rect.unit (s := S4096x112) ![0, 16] S4096x16.size inb_S4096x112_S4096x16_0_16, k0_pay4 x0⟩,
   ⟨Rect.unit (s := S4096x112) ![0, 0] S4096x16.size inb_S4096x112_S4096x16_0_0, k0_pay3 x0⟩]

/-- The feature buffer's contents once the seven slices are stored. -/
def featBlock (x0 : Vec F S4096x16 .f32) : Vec F S4096x112 .f32 := View.canon (featPieces x0)

/-- A whole-buffer load after any stores reads the stores' overlay. -/
theorem readCov_whole {sig' : RefSig} {κ : Kind} {sp : Space} {S : Shape} {e : EltTy} (v : View sig' κ sp S e)
    (L : List (View.Piece (Elt F) S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

/-- The output block after the body: the one stored value, over the feature buffer's contents and the weight blocks. -/
theorem out_eq (c : Dev nD) (i : grid0.Coords) (arg1 : Memref sig .tc .vmem S4096x16 .f32) (harg1 : arg1.IsWhole) (arg2 : Memref sig .tc .vmem S112x1 .f32) (harg2 : arg2.IsWhole) (arg3 : Memref sig .tc .vmem S112x1 .f32) (harg3 : arg3.IsWhole) (arg4 : Memref sig .tc .vmem S4096x2 .f32) (harg4 : arg4.IsWhole) (arg5 : Memref sig .tc .vmem S4096x112 .f32) (harg5 : arg5.IsWhole) (arg6 : Memref sig .tc .vmem S4096x112 .f32) (harg6 : arg6.IsWhole)
    (x0 : Vec F S4096x16 .f32) (x1 : Vec F S112x1 .f32) (x2 : Vec F S112x1 .f32) :
    out0_A_3 c i arg1 harg1 arg2 harg2 arg3 harg3 arg4 harg4 arg5 harg5 arg6 harg6 x0 x1 x2
      = k0_pay2 (featBlock x0) x1 x2 (k0_pay1 (k0_pay10 (featBlock x0))) := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero off00]
  simp only [View.readAt_eq_ld, harg1.read_unread, harg2.read_unread, harg3.read_unread,
    View.ld_unit_zero (S := S4096x16) off00, View.ld_unit_zero (S := S112x1) off00,
    View.readCov_unit_zero (S := S4096x112) _ off00, readCov_whole (S := S4096x112) _ _ off00]
  rfl

end Cert.KernelIdeal.Body

end
-- ==== Proof.Spec.lean ====
/-
  What both programs compute, as one function of the three argument arrays.

  A row of `x` has 16 entries. Its 112 features are seven maps of those entries laid side by side: feature
  `16 q + j` is the `q`-th map of entry `j`, the maps being, in order, the identity, sine, cosine, hyperbolic tangent,
  the exponential, the logarithm of the absolute value, and the logistic function. The result has two columns: column 0 is
  the weighted sum of the row's features (weights `wsum`), column 1 the exponential of the weighted sum of the logarithms
  of the features' absolute values (weights `wprod`). Everything is read on the extended reals.
-/
import Idealize.ShloMosaic.PureOps.Ideal.Laws
import Idealize.ShloMosaic.Lib.ValueIdx

noncomputable section

open scoped BigOperators

namespace Cert.Spec

open Idealize.ShloMosaic Idealize.ShloMosaic.ValueIdx

/-- The seven maps, by their position among the features; a position past the sixth reads as the last. -/
def phi : Nat → EReal → EReal
  | 0, a => a
  | 1, a => Ideal.sin a
  | 2, a => Ideal.cos a
  | 3, a => Ideal.tanh a
  | 4, a => Ideal.exp a
  | 5, a => Ideal.log (max a (-a))
  | _, a => Ideal.logistic a

/-- Feature `k` of row `r`: map `k / 16` of entry `k % 16`. -/
def feat (x : (⟨2, ![1048576, 16]⟩ : Shape).Idx → EReal) (r : Fin 1048576) (k : Fin 112) : EReal :=
  phi (k.val / 16) (x (ix2 r ⟨k.val % 16, Nat.mod_lt _ (by norm_num)⟩))

/-- A feature whose position is written `16 q + j` is map `q` of entry `j`. -/
theorem feat_of (x : (⟨2, ![1048576, 16]⟩ : Shape).Idx → EReal) (r : Fin 1048576) (k : Fin 112) (q : Nat) (j : Fin 16)
    (h : k.val = 16 * q + j.val) : feat x r k = phi q (x (ix2 r j)) := by
  have hq : k.val / 16 = q := by have := j.isLt; omega
  have hj : (⟨k.val % 16, Nat.mod_lt _ (by norm_num)⟩ : Fin 16) = j := Fin.ext (by have := j.isLt; simp only; omega)
  unfold feat
  rw [hq, hj]

/-- Column 0 of row `r`: the weighted sum of the features. -/
def sumOut (x : (⟨2, ![1048576, 16]⟩ : Shape).Idx → EReal) (wsum : (⟨2, ![112, 1]⟩ : Shape).Idx → EReal)
    (r : Fin 1048576) : EReal :=
  ∑ k : Fin 112, feat x r k * wsum (ix2 k 0)

/-- Column 1 of row `r`: the exponential of the weighted sum of the logarithms of the features' absolute values. -/
def prodOut (x : (⟨2, ![1048576, 16]⟩ : Shape).Idx → EReal) (wprod : (⟨2, ![112, 1]⟩ : Shape).Idx → EReal)
    (r : Fin 1048576) : EReal :=
  Ideal.exp (∑ k : Fin 112, Ideal.log (max (feat x r k) (-(feat x r k))) * wprod (ix2 k 0))

/-- The result array: two columns per row. -/
def G (x : (⟨2, ![1048576, 16]⟩ : Shape).Idx → EReal) (wsum wprod : (⟨2, ![112, 1]⟩ : Shape).Idx → EReal) :
    (⟨2, ![1048576, 2]⟩ : Shape).Idx → EReal :=
  fun i => if (i 1).val = 0 then sumOut x wsum (i 0) else prodOut x wprod (i 0)

end Cert.Spec

end
-- ==== Proof.FeatureBlock.lean ====
/-
  The feature buffer read at an index, on the extended reals.

  Entry `(p, k)` of the 4096 × 112 feature buffer is map `k / 16` of entry `(p, k % 16)` of the `x` block: the seven
  stored column slices all agree with that one function of the buffer index (slice `q` at its local index `(a, b)` sits
  at buffer index `(a, 16 q + b)` and holds map `q` of `x (a, b)`), and together they tile the buffer.
-/
import proofs.«138635_j43276090474799_1_alg».proof.Proof.BodyStore
import proofs.«138635_j43276090474799_1_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem

/-- Entry `y` of the feature buffer as a function of the `x` block: map `y₁ / 16` of entry `(y₀, y₁ % 16)`. -/
def featAt (x0 : Vec Ideal S4096x16 .f32) : S4096x112.Idx → EReal := fun y =>
  Cert.Spec.phi ((y 1).val / 16)
    (x0 (ix2 (⟨(y 0).val, idx2_lt0 y⟩ : Fin 4096) (⟨(y 1).val % 16, Nat.mod_lt _ (by norm_num)⟩ : Fin 16)))

/-- At a buffer index whose row is `x₀` and whose column is `16 q + x₁`, that function is map `q` of `x (x₀, x₁)`. -/
theorem featAt_of (x0 : Vec Ideal S4096x16 .f32) (y : S4096x112.Idx) (q : Nat) (x : S4096x16.Idx)
    (h0 : (y 0).val = (x 0).val) (h1 : (y 1).val = 16 * q + (x 1).val) :
    featAt x0 y = Cert.Spec.phi q (x0 x) := by
  have hx1 : (x 1).val < 16 := idx2_lt1 x
  have hq : (y 1).val / 16 = q := by omega
  have hj : (y 1).val % 16 = (x 1).val := by omega
  have hx : ix2 (⟨(y 0).val, idx2_lt0 y⟩ : Fin 4096) (⟨(y 1).val % 16, Nat.mod_lt _ (by norm_num)⟩ : Fin 16) = x := by
    funext d
    match d with
    | ⟨0, _⟩ => exact Fin.ext h0
    | ⟨1, _⟩ => exact Fin.ext hj
  unfold featAt
  rw [hq, hx]

/-- Each slice's stored value at an index: the slice's map of the `x` block's entry there (the same-shape cast in
    between is the identity). -/
theorem pay3_apply (x0 : Vec Ideal S4096x16 .f32) (x : S4096x16.Idx) : k0_pay3 (F := Ideal) x0 x = Cert.Spec.phi 0 (x0 x) := by
  unfold k0_pay3; rw [shapeCast_self]; rfl
theorem pay4_apply (x0 : Vec Ideal S4096x16 .f32) (x : S4096x16.Idx) : k0_pay4 (F := Ideal) x0 x = Cert.Spec.phi 1 (x0 x) := by
  unfold k0_pay4; rw [shapeCast_self]; rfl
theorem pay5_apply (x0 : Vec Ideal S4096x16 .f32) (x : S4096x16.Idx) : k0_pay5 (F := Ideal) x0 x = Cert.Spec.phi 2 (x0 x) := by
  unfold k0_pay5; rw [shapeCast_self]; rfl
theorem pay6_apply (x0 : Vec Ideal S4096x16 .f32) (x : S4096x16.Idx) : k0_pay6 (F := Ideal) x0 x = Cert.Spec.phi 3 (x0 x) := by
  unfold k0_pay6; rw [shapeCast_self]; rfl
theorem pay7_apply (x0 : Vec Ideal S4096x16 .f32) (x : S4096x16.Idx) : k0_pay7 (F := Ideal) x0 x = Cert.Spec.phi 4 (x0 x) := by
  unfold k0_pay7; rw [shapeCast_self]; rfl
theorem pay8_apply (x0 : Vec Ideal S4096x16 .f32) (x : S4096x16.Idx) : k0_pay8 (F := Ideal) x0 x = Cert.Spec.phi 5 (x0 x) := by
  unfold k0_pay8; rw [shapeCast_self]; rfl
theorem pay9_apply (x0 : Vec Ideal S4096x16 .f32) (x : S4096x16.Idx) : k0_pay9 (F := Ideal) x0 x = Cert.Spec.phi 6 (x0 x) := by
  unfold k0_pay9; rw [shapeCast_self]; rfl

/-- Each stored slice agrees with `featAt` where it sits. -/
theorem pieces_agree (x0 : Vec Ideal S4096x16 .f32) :
    ∀ pc ∈ featPieces (F := Ideal) x0, ∀ x : pc.1.shape.Idx, pc.2 x = featAt x0 (pc.1.emb x) := by
  intro pc hpc x
  simp only [featPieces, List.mem_cons, List.not_mem_nil, or_false] at hpc
  rcases hpc with rfl | rfl | rfl | rfl | rfl | rfl | rfl
  · refine (pay9_apply x0 x).trans (featAt_of x0 _ 6 x ?_ ?_).symm
    · show 0 + 1 * (x 0).val = (x 0).val; omega
    · show 96 + 1 * (x 1).val = 16 * 6 + (x 1).val; omega
  · refine (pay8_apply x0 x).trans (featAt_of x0 _ 5 x ?_ ?_).symm
    · show 0 + 1 * (x 0).val = (x 0).val; omega
    · show 80 + 1 * (x 1).val = 16 * 5 + (x 1).val; omega
  · refine (pay7_apply x0 x).trans (featAt_of x0 _ 4 x ?_ ?_).symm
    · show 0 + 1 * (x 0).val = (x 0).val; omega
    · show 64 + 1 * (x 1).val = 16 * 4 + (x 1).val; omega
  · refine (pay6_apply x0 x).trans (featAt_of x0 _ 3 x ?_ ?_).symm
    · show 0 + 1 * (x 0).val = (x 0).val; omega
    · show 48 + 1 * (x 1).val = 16 * 3 + (x 1).val; omega
  · refine (pay5_apply x0 x).trans (featAt_of x0 _ 2 x ?_ ?_).symm
    · show 0 + 1 * (x 0).val = (x 0).val; omega
    · show 32 + 1 * (x 1).val = 16 * 2 + (x 1).val; omega
  · refine (pay4_apply x0 x).trans (featAt_of x0 _ 1 x ?_ ?_).symm
    · show 0 + 1 * (x 0).val = (x 0).val; omega
    · show 16 + 1 * (x 1).val = 16 * 1 + (x 1).val; omega
  · refine (pay3_apply x0 x).trans (featAt_of x0 _ 0 x ?_ ?_).symm
    · show 0 + 1 * (x 0).val = (x 0).val; omega
    · show 0 + 1 * (x 1).val = 16 * 0 + (x 1).val; omega

/-- The seven slices tile the buffer, so every index lies in one of them. -/
theorem pieces_cover (x0 : Vec Ideal S4096x16 .f32) (y : S4096x112.Idx) :
    ∃ pc ∈ featPieces (F := Ideal) x0, y ∈ pc.1.set :=
  View.cover_of_tiledL (featPieces (F := Ideal) x0) S4096x16.size (by sl_kernel_rfl) y

/-- The feature buffer's contents are `featAt` of the `x` block. -/
theorem featBlock_eq (x0 : Vec Ideal S4096x16 .f32) : featBlock (F := Ideal) x0 = featAt x0 := by
  unfold featBlock
  exact funext fun y =>
    View.canon_apply_of_pieces (featAt x0) (featPieces (F := Ideal) x0) (pieces_agree x0) y (pieces_cover x0 y)

end Cert.KernelIdeal.Body

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.OutputBlock.lean ====
/-
  The stored output value read at an index, on the extended reals.

  The kernel's contraction of a 4096 × 112 block with a 112 × 1 weight block into a zero accumulator is, at row `p`, the sum
  over the 112 columns `k` of the block's entry `(p, k)` times the weight `(k, 0)` (the narrowing of the operands to bf16 is
  the identity on the extended reals). The stored value lays two such columns side by side: column 0 is the contraction of the
  feature buffer with the first weight block, column 1 the exponential of the contraction of the second buffer with the
  second weight block.
-/
import proofs.«138635_j43276090474799_1_alg».proof.Proof.BodyStore
import proofs.«138635_j43276090474799_1_alg».proof.Proof.LibContraction
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Cert.Lib.Contraction
open Idealize.ShloMosaic Idealize.ShloMosaic.ValueIdx

/-- The contraction's positions are the 112 columns. -/
abbrev cols : dot_S4096x112_S112x1_S4096x1_1_0_0_1_n_n.contr.Idx ≃ Fin 112 :=
  contrFin dot_S4096x112_S112x1_S4096x1_1_0_0_1_n_n (cl := 1) rfl 112 rfl

/-- The left operand is read at the result's row … -/
theorem lhs_row (j : S4096x1.Idx) (k : dot_S4096x112_S112x1_S4096x1_1_0_0_1_n_n.contr.Idx) :
    (dot_S4096x112_S112x1_S4096x1_1_0_0_1_n_n.lhsIdx j k 0).val = (j 0).val :=
  lhs_free dot_S4096x112_S112x1_S4096x1_1_0_0_1_n_n (nl := 0) rfl rfl j k (by decide)
/-- … and at the position's column; -/
theorem lhs_col (j : S4096x1.Idx) (i : Fin 112) :
    (dot_S4096x112_S112x1_S4096x1_1_0_0_1_n_n.lhsIdx j (cols.symm i) 1).val = i.val :=
  lhs_contracted dot_S4096x112_S112x1_S4096x1_1_0_0_1_n_n (cl := 1) rfl 112 rfl j i
/-- the right operand at the position's row … -/
theorem rhs_row (j : S4096x1.Idx) (i : Fin 112) :
    (dot_S4096x112_S112x1_S4096x1_1_0_0_1_n_n.rhsIdx j (cols.symm i) 0).val = i.val :=
  rhs_contracted dot_S4096x112_S112x1_S4096x1_1_0_0_1_n_n (cl := 1) (cr := 0) rfl rfl 112 rfl j i
/-- … and at the result's column. -/
theorem rhs_col (j : S4096x1.Idx) (k : dot_S4096x112_S112x1_S4096x1_1_0_0_1_n_n.contr.Idx) :
    (dot_S4096x112_S112x1_S4096x1_1_0_0_1_n_n.rhsIdx j k 1).val = (j 1).val :=
  rhs_free dot_S4096x112_S112x1_S4096x1_1_0_0_1_n_n (nl := 0) (nr := 1) rfl rfl rfl rfl j k (by decide)

/-- The kernel's contraction into a zero accumulator, at row `p`: the sum over the columns. -/
theorem contraction_row {φ₁ φ₂ : FTy} (l : FVec Ideal S4096x112 φ₁) (r : FVec Ideal S112x1 φ₂) (p : Fin 4096) :
    matmul dot_S4096x112_S112x1_S4096x1_1_0_0_1_n_n none l r (constant S4096x1 .f32 0x00000000#32) (ix2 p (0 : Fin 1))
      = ∑ k : Fin 112, l (ix2 p k) * r (ix2 k (0 : Fin 1)) := by
  simp only [matmul]
  rw [Ideal.matmul_constant_zero_apply, sum_contr dot_S4096x112_S112x1_S4096x1_1_0_0_1_n_n (cl := 1) rfl 112 rfl]
  refine Finset.sum_congr rfl fun k _ => ?_
  have el : dot_S4096x112_S112x1_S4096x1_1_0_0_1_n_n.lhsIdx (ix2 p (0 : Fin 1)) (cols.symm k) = ix2 p k := funext fun a => Fin.ext (by
    match a with
    | ⟨0, _⟩ => exact lhs_row _ _
    | ⟨1, _⟩ => exact lhs_col _ _)
  have er : dot_S4096x112_S112x1_S4096x1_1_0_0_1_n_n.rhsIdx (ix2 p (0 : Fin 1)) (cols.symm k) = ix2 k (0 : Fin 1) := funext fun a => Fin.ext (by
    match a with
    | ⟨0, _⟩ => exact rhs_row _ _
    | ⟨1, _⟩ => exact rhs_col _ _)
  show l (dot_S4096x112_S112x1_S4096x1_1_0_0_1_n_n.lhsIdx (ix2 p (0 : Fin 1)) (cols.symm k)) * r (dot_S4096x112_S112x1_S4096x1_1_0_0_1_n_n.rhsIdx (ix2 p (0 : Fin 1)) (cols.symm k)) = _
  rw [el, er]

/-- Column 0 of the stored value at row `p`: the feature buffer's row against the first weight block. -/
theorem stored_col0 (fe : Vec Ideal S4096x112 .f32) (w1 w2 : Vec Ideal S112x1 .f32) (lf : Vec Ideal S4096x112 .f32)
    (p : Fin 4096) :
    k0_pay2 (F := Ideal) fe w1 w2 lf (ix2 p (0 : Fin 2)) = ∑ k : Fin 112, fe (ix2 p k) * w1 (ix2 k (0 : Fin 1)) := by
  unfold k0_pay2
  refine (concatenate_pair_apply_left (1 : Fin S4096x2.rank) _ _ concatenates_S4096x1_S4096x1_S4096x2_d1
    (ix2 p (0 : Fin 2)) rfl (ix2 p (0 : Fin 1)) (fun b => by
      match b with
      | ⟨0, _⟩ => rfl
      | ⟨1, _⟩ => rfl)).trans ?_
  exact contraction_row _ _ p

/-- Column 1 of the stored value at row `p`: the exponential of the second buffer's row against the second weight block. -/
theorem stored_col1 (fe : Vec Ideal S4096x112 .f32) (w1 w2 : Vec Ideal S112x1 .f32) (lf : Vec Ideal S4096x112 .f32)
    (p : Fin 4096) :
    k0_pay2 (F := Ideal) fe w1 w2 lf (ix2 p (1 : Fin 2))
      = Ideal.exp (∑ k : Fin 112, lf (ix2 p k) * w2 (ix2 k (0 : Fin 1))) := by
  unfold k0_pay2
  refine (concatenate_pair_apply_right (1 : Fin S4096x2.rank) _ _ concatenates_S4096x1_S4096x1_S4096x2_d1
    (ix2 p (1 : Fin 2)) rfl rfl (ix2 p (0 : Fin 1)) (fun b hb => by
      match b, hb with
      | ⟨0, _⟩, _ => rfl
      | ⟨1, _⟩, hb => exact absurd rfl hb) rfl).trans ?_
  exact congrArg Ideal.exp (contraction_row _ _ p)

end Cert.KernelIdeal.Body

end
-- ==== Proof.BlockValue.lean ====
/-
  The output block the body leaves is the specification's rows for that block.

  If the `x` block is rows `base … base + 4095` of the array `X`, then entry `(p, k)` of the feature buffer is feature `k`
  of row `base + p` of `X`; the second buffer holds the logarithm of the absolute value of the first; and the stored value's
  two columns at row `p` are the specification's two columns at row `base + p`.
-/
import proofs.«138635_j43276090474799_1_alg».proof.Proof.FeatureBlock
import proofs.«138635_j43276090474799_1_alg».proof.Proof.OutputBlock

noncomputable section

open scoped BigOperators

namespace Cert.KernelIdeal.Body

open Cert.KernelIdeal Cert.KernelIdeal.Gen
open Idealize.ShloMosaic Idealize.ShloMosaic.ValueIdx

/-- The second buffer holds the logarithm of the absolute value of the first (the same-shape cast is the identity). -/
theorem logBlock_apply (fe : Vec Ideal S4096x112 .f32) (y : S4096x112.Idx) :
    k0_pay1 (F := Ideal) (k0_pay10 (F := Ideal) fe) y = Ideal.log (max (fe y) (-(fe y))) := by
  unfold k0_pay1 k0_pay10; rw [shapeCast_self]; rfl

/-- Entry `(p, k)` of the feature buffer is feature `k` of row `base + p` of the array the `x` block is cut from. -/
theorem featBlock_row (x0 : Vec Ideal S4096x16 .f32) (X : (⟨2, ![1048576, 16]⟩ : Shape).Idx → EReal)
    (base : Nat) (hb : base + 4096 ≤ 1048576)
    (hx : ∀ (p : Fin 4096) (j : Fin 16), x0 (ix2 p j) = X (ix2 (⟨base + p.val, by have := p.isLt; omega⟩ : Fin 1048576) j))
    (p : Fin 4096) (k : Fin 112) :
    featBlock (F := Ideal) x0 (ix2 p k) = Cert.Spec.feat X (⟨base + p.val, by have := p.isLt; omega⟩ : Fin 1048576) k := by
  rw [featBlock_eq]
  unfold featAt Cert.Spec.feat
  exact congrArg (Cert.Spec.phi (k.val / 16)) (hx p ⟨k.val % 16, Nat.mod_lt _ (by norm_num)⟩)

/-- The stored value at `(p, q)` is the specification at `(base + p, q)`. -/
theorem block_eq_spec (x0 : Vec Ideal S4096x16 .f32) (w1 w2 : Vec Ideal S112x1 .f32)
    (X : (⟨2, ![1048576, 16]⟩ : Shape).Idx → EReal) (base : Nat) (hb : base + 4096 ≤ 1048576)
    (hx : ∀ (p : Fin 4096) (j : Fin 16), x0 (ix2 p j) = X (ix2 (⟨base + p.val, by have := p.isLt; omega⟩ : Fin 1048576) j))
    (p : Fin 4096) (q : Fin 2) :
    k0_pay2 (F := Ideal) (featBlock x0) w1 w2 (k0_pay1 (k0_pay10 (featBlock x0))) (ix2 p q)
      = Cert.Spec.G X w1 w2 (ix2 (⟨base + p.val, by have := p.isLt; omega⟩ : Fin 1048576) q) := by
  match q with
  | ⟨0, _⟩ =>
    refine (stored_col0 (featBlock x0) w1 w2 _ p).trans ?_
    unfold Cert.Spec.G
    rw [if_pos rfl]
    unfold Cert.Spec.sumOut
    exact Finset.sum_congr rfl fun k _ => congrArg (· * w1 (ix2 k (0 : Fin 1))) (featBlock_row x0 X base hb hx p k)
  | ⟨1, _⟩ =>
    refine (stored_col1 (featBlock x0) w1 w2 _ p).trans ?_
    unfold Cert.Spec.G
    rw [if_neg (fun h => Nat.one_ne_zero h)]
    unfold Cert.Spec.prodOut
    refine congrArg Ideal.exp (Finset.sum_congr rfl fun k _ => ?_)
    rw [logBlock_apply, featBlock_row x0 X base hb hx p k]

end Cert.KernelIdeal.Body

end
-- ==== Proof.ArrayValue.lean ====
/-
  The kernel's result array after the run is the specification of the three argument arrays.

  Grid point `t` stages rows `4096 t … 4096 t + 4095` of `x` and both weight arrays whole, and writes its output block
  back to rows `4096 t … 4096 t + 4095` of the result. What it writes back is the specification on those rows, and the 256
  blocks fill the result array; so the array ends holding the specification.
-/
import proofs.«138635_j43276090474799_1_alg».proof.Proof.BlockValue
import proofs.«138635_j43276090474799_1_alg».proof.Proof.Gen.KernelIdeal.Value
import Idealize.ShloMosaic.Lib.Pipeline.Value

noncomputable section

namespace Cert.KernelIdeal.Whole

open Cert.KernelIdeal Cert.KernelIdeal.Gen Cert.KernelIdeal.Value Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays as the region finds them, -/
abbrev xarr (c : Dev nD) : Vec Ideal S1048576x16 .f32 := V m c main_arg0
abbrev w1arr (c : Dev nD) : Vec Ideal S112x1 .f32 := V m c main_arg1
abbrev w2arr (c : Dev nD) : Vec Ideal S112x1 .f32 := V m c main_arg2
/-- and the blocks of them staged at point `t`. -/
abbrev xblk (c : Dev nD) (t : Fin cfg0.N) : Vec Ideal S4096x16 .f32 := iblk m c 0 t
abbrev w1blk (c : Dev nD) (t : Fin cfg0.N) : Vec Ideal S112x1 .f32 := iblk m c 1 t
abbrev w2blk (c : Dev nD) (t : Fin cfg0.N) : Vec Ideal S112x1 .f32 := iblk m c 2 t

/-- The block indices at point `t`: the `x` window and the result window are at row block `t`, column block 0; the weight
    windows stay at block (0, 0). Decided over the 256 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are 256 points. -/
theorem lt_points (t : Fin cfg0.N) : t.val < 256 := by
  have h : cfg0.N = 256 := N_0
  have := t.isLt
  omega

/-- The `x` block at point `t` is rows `4096 t … 4096 t + 4095` of `x`. -/
theorem xblk_apply (c : Dev nD) (t : Fin cfg0.N) (p : Fin 4096) (j : Fin 16) :
    xblk m c t (ix2 p j)
      = xarr m c (ix2 (⟨4096 * t.val + p.val, by have := lt_points t; have := p.isLt; omega⟩ : Fin 1048576) j) := by
  obtain ⟨e0, e1, -⟩ := idx_facts t
  show V m c main_arg0 (((cfg0.win 0).blk t).view.emb (ix2 p j)) = V m c main_arg0 _
  congr 1
  funext a; apply Fin.ext
  match a with
  | ⟨0, _⟩ => show win0_0.index t (0 : Fin 2) * 4096 + 1 * p.val = 4096 * t.val + p.val; omega
  | ⟨1, _⟩ => show win0_0.index t (1 : Fin 2) * 16 + 1 * j.val = j.val; omega

/-- The weight blocks are the weight arrays, whole, at every point. -/
theorem w1blk_eq (c : Dev nD) (t : Fin cfg0.N) : w1blk m c t = w1arr m c := by
  obtain ⟨-, -, e2, e3, -⟩ := idx_facts t
  funext y
  show V m c main_arg1 (((cfg0.win 1).blk t).view.emb y) = V m c main_arg1 y
  congr 1
  funext a; apply Fin.ext
  match a with
  | ⟨0, _⟩ => show win0_1.index t (0 : Fin 2) * 112 + 1 * (y 0).val = (y 0).val; omega
  | ⟨1, _⟩ => show win0_1.index t (1 : Fin 2) * 1 + 1 * (y 1).val = (y 1).val; omega
theorem w2blk_eq (c : Dev nD) (t : Fin cfg0.N) : w2blk m c t = w2arr m c := by
  obtain ⟨-, -, -, -, e4, e5, -⟩ := idx_facts t
  funext y
  show V m c main_arg2 (((cfg0.win 2).blk t).view.emb y) = V m c main_arg2 y
  congr 1
  funext a; apply Fin.ext
  match a with
  | ⟨0, _⟩ => show win0_2.index t (0 : Fin 2) * 112 + 1 * (y 0).val = (y 0).val; omega
  | ⟨1, _⟩ => show win0_2.index t (1 : Fin 2) * 1 + 1 * (y 1).val = (y 1).val; omega

/-- What point `t` writes back is the body's one stored value over the point's blocks. -/
theorem flushed_stored (c : Dev nD) (t : Fin cfg0.N) :
    (dats m 0 c).flushed 3 t
      = (cfg0.win 3).cut (grid0.coords t)
          (k0_pay2 (F := Ideal) (featBlock (xblk m c t)) (w1blk m c t) (w2blk m c t) (k0_pay1 (k0_pay10 (featBlock (xblk m c t))))) :=
  (flushed3_A m c t).trans (congrArg ((cfg0.win 3).cut (grid0.coords t))
    (out_eq (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (iblk m c 0 t) (iblk m c 1 t) (iblk m c 2 t)))

/-- What point `t` writes back is block `t` of the specification of the argument arrays. -/
theorem flushed_eq (c : Dev nD) (t : Fin cfg0.N) :
    (dats m 0 c).flushed 3 t
      = ((cfg0.win 3).blk t).view.read (Elt Ideal) (Cert.Spec.G (xarr m c) (w1arr m c) (w2arr m c)) := by
  rw [flushed_stored]
  obtain ⟨-, -, -, -, -, -, e6, e7⟩ := idx_facts t
  have ht := lt_points t
  funext y
  obtain ⟨p, q, rfl⟩ : ∃ (p : Fin 4096) (q : Fin 2), y = ix2 p q := ⟨y 0, y 1, eq_ix2 y⟩
  show k0_pay2 (F := Ideal) (featBlock (xblk m c t)) (w1blk m c t) (w2blk m c t) (k0_pay1 (k0_pay10 (featBlock (xblk m c t)))) (ix2 p q)
    = Cert.Spec.G (xarr m c) (w1arr m c) (w2arr m c) (((cfg0.win 3).blk t).view.emb (ix2 p q))
  rw [w1blk_eq, w2blk_eq]
  refine (block_eq_spec (xblk m c t) (w1arr m c) (w2arr m c) (xarr m c) (4096 * t.val) (by omega)
    (fun p j => xblk_apply m c t p j) p q).trans ?_
  congr 1
  funext a; apply Fin.ext
  match a with
  | ⟨0, _⟩ => show 4096 * t.val + p.val = win0_3.index t (0 : Fin 2) * 4096 + 1 * p.val; omega
  | ⟨1, _⟩ => show q.val = win0_3.index t (1 : Fin 2) * 2 + 1 * q.val; omega

/-- An index of the result array is in point `t`'s block iff each coordinate is in the block's range on its axis. -/
theorem mem_blk (t : Fin cfg0.N) (i : S1048576x2.Idx) :
    i ∈ ((cfg0.win 3).blk t).view.set ↔ ∀ a : Fin 2, win0_3.index t a * S4096x2.size a ≤ (i a).val ∧ (i a).val < win0_3.index t a * S4096x2.size a + S4096x2.size a := by
  show i ∈ ((View.whole main_v0).slice (win0_3.rect t)).set ↔ _
  rw [View.set_slice_whole, Rect.mem_set_unit]
  exact Iff.rfl

/-- Every index of the result array is in the block of the point its row names. -/
theorem covered (i : S1048576x2.Idx) :
    ∃ t : Fin cfg0.N, (cfg0.win 3).flush t = true ∧ i ∈ ((cfg0.win 3).blk t).view.set := by
  have hi0 : (i 0).val < 1048576 := idx2_lt0 i
  have hi1 : (i 1).val < 2 := idx2_lt1 i
  have hN : cfg0.N = 256 := N_0
  obtain ⟨t, ht⟩ : ∃ t : Fin cfg0.N, t.val = (i 0).val / 4096 := ⟨⟨(i 0).val / 4096, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 2 ≤ (i 1).val ∧ (i 1).val < win0_3.index t (1 : Fin 2) * 2 + 2; omega

/-- The result array after the run is the specification of the argument arrays. -/
theorem final (c : Dev nD) : (dats m 0 c).arrAt 3 cfg0.N = Cert.Spec.G (xarr m c) (w1arr m c) (w2arr m c) :=
  (dats m 0 c).arrAt_eq_of_cover 3 (Cert.Spec.G (xarr m c) (w1arr m c) (w2arr m c)) (fun t _ => flushed_eq m c t) covered

/-- Every weakly fair execution of the kernel's program ends with the result array at the specification of the argument
    arrays as launched, and those unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefValue.lean ====
/-
  The reference's result is the specification of its three arguments.

  The reference lays the seven maps of `x` side by side along the columns, so column `k` of row `r` of that array is
  feature `k` of row `r` (its logistic map is spelt `1 / (1 + exp (-x))`, which is the logistic function's definition on the
  extended reals); each of its two matrix products is, at row `r`, the sum over the 112 columns; and its last step lays the
  first product and the exponential of the second side by side.
-/
import proofs.«138635_j43276090474799_1_alg».proof.Proof.Gen.ReferenceIdeal.Read
import proofs.«138635_j43276090474799_1_alg».proof.Proof.Spec
import Idealize.ShloMosaic.Lib.IdealHost
import Idealize.ShloMosaic.Lib.Pipeline.Value

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's `1 / (1 + exp (-x))` at an index is the logistic function of the entry: the two literals are the real
    one. -/
theorem logistic_apply (x0 : (⟨S1048576x16, .f32⟩ : BufTy).Contents (Elt Ideal)) (i : S1048576x16.Idx) :
    val_main_v11 (F := Ideal) x0 i = Ideal.logistic (x0 i) := by
  rw [val_main_v11_apply, val_main_v10_apply, val_main_v9_apply, val_main_v8_apply]
  show Ideal.div (Ideal.ofBits .f32 0x3F800000#32) (Ideal.ofBits .f32 0x3F800000#32 + Ideal.exp (-(x0 i)))
    = Ideal.logistic (x0 i)
  rw [Ideal.ofBits_one_f32]
  rfl

/-- The seven arrays the reference lays side by side, in order. -/
abbrev sevenMaps (x0 : (⟨S1048576x16, .f32⟩ : BufTy).Contents (Elt Ideal)) : List ((s : Shape) × (s.Idx → Elt Ideal .f32)) :=
  [⟨S1048576x16, x0⟩, ⟨S1048576x16, val_main_v0 (F := Ideal) x0⟩, ⟨S1048576x16, val_main_v1 (F := Ideal) x0⟩,
   ⟨S1048576x16, val_main_v2 (F := Ideal) x0⟩, ⟨S1048576x16, val_main_v3 (F := Ideal) x0⟩,
   ⟨S1048576x16, val_main_v5 (F := Ideal) x0⟩, ⟨S1048576x16, val_main_v11 (F := Ideal) x0⟩]

/-- Column `k` of row `r` of the side-by-side array is feature `k` of row `r`. -/
theorem feats_apply (x0 : (⟨S1048576x16, .f32⟩ : BufTy).Contents (Elt Ideal)) (r : Fin 1048576) (k : Fin 112) :
    val_main_v12 (F := Ideal) x0 (ix2 r k) = Cert.Spec.feat x0 r k := by
  have hk := k.isLt
  obtain ⟨j, hj⟩ : ∃ j : Fin 16, j.val = k.val % 16 := ⟨⟨k.val % 16, Nat.mod_lt _ (by norm_num)⟩, rfl⟩
  have hq : k.val / 16 = 0 ∨ k.val / 16 = 1 ∨ k.val / 16 = 2 ∨ k.val / 16 = 3 ∨ k.val / 16 = 4 ∨ k.val / 16 = 5
      ∨ k.val / 16 = 6 := by omega
  show concatenate S1048576x112 1 (sevenMaps x0) concatenates_S1048576x16_S1048576x16_S1048576x16_S1048576x16_S1048576x16_S1048576x16_S1048576x16_S1048576x112_d1 (ix2 r k) = _
  rcases hq with hq | hq | hq | hq | hq | hq | hq
  · rw [Cert.Spec.feat_of x0 r k 0 j (by omega)]
    refine (concatenate_apply_piece (1 : Fin S1048576x112.rank) (sevenMaps x0) concatenates_S1048576x16_S1048576x16_S1048576x16_S1048576x16_S1048576x16_S1048576x16_S1048576x16_S1048576x112_d1
      (ix2 r k) 0 (Nat.lt_of_lt_of_eq (by decide : 0 < 7) rfl) S1048576x16 (x0) rfl rfl 0 rfl (ix2 r j) (fun b hb => by
        match b, hb with
        | ⟨0, _⟩, _ => rfl
        | ⟨1, _⟩, hb => exact absurd rfl hb) (by show 0 + j.val = k.val; omega)).trans ?_
    rfl
  · rw [Cert.Spec.feat_of x0 r k 1 j (by omega)]
    refine (concatenate_apply_piece (1 : Fin S1048576x112.rank) (sevenMaps x0) concatenates_S1048576x16_S1048576x16_S1048576x16_S1048576x16_S1048576x16_S1048576x16_S1048576x16_S1048576x112_d1
      (ix2 r k) 1 (Nat.lt_of_lt_of_eq (by decide : 1 < 7) rfl) S1048576x16 (val_main_v0 (F := Ideal) x0) rfl rfl 16 rfl (ix2 r j) (fun b hb => by
        match b, hb with
        | ⟨0, _⟩, _ => rfl
        | ⟨1, _⟩, hb => exact absurd rfl hb) (by show 16 + j.val = k.val; omega)).trans ?_
    rfl
  · rw [Cert.Spec.feat_of x0 r k 2 j (by omega)]
    refine (concatenate_apply_piece (1 : Fin S1048576x112.rank) (sevenMaps x0) concatenates_S1048576x16_S1048576x16_S1048576x16_S1048576x16_S1048576x16_S1048576x16_S1048576x16_S1048576x112_d1
      (ix2 r k) 2 (Nat.lt_of_lt_of_eq (by decide : 2 < 7) rfl) S1048576x16 (val_main_v1 (F := Ideal) x0) rfl rfl 32 rfl (ix2 r j) (fun b hb => by
        match b, hb with
        | ⟨0, _⟩, _ => rfl
        | ⟨1, _⟩, hb => exact absurd rfl hb) (by show 32 + j.val = k.val; omega)).trans ?_
    rfl
  · rw [Cert.Spec.feat_of x0 r k 3 j (by omega)]
    refine (concatenate_apply_piece (1 : Fin S1048576x112.rank) (sevenMaps x0) concatenates_S1048576x16_S1048576x16_S1048576x16_S1048576x16_S1048576x16_S1048576x16_S1048576x16_S1048576x112_d1
      (ix2 r k) 3 (Nat.lt_of_lt_of_eq (by decide : 3 < 7) rfl) S1048576x16 (val_main_v2 (F := Ideal) x0) rfl rfl 48 rfl (ix2 r j) (fun b hb => by
        match b, hb with
        | ⟨0, _⟩, _ => rfl
        | ⟨1, _⟩, hb => exact absurd rfl hb) (by show 48 + j.val = k.val; omega)).trans ?_
    rfl
  · rw [Cert.Spec.feat_of x0 r k 4 j (by omega)]
    refine (concatenate_apply_piece (1 : Fin S1048576x112.rank) (sevenMaps x0) concatenates_S1048576x16_S1048576x16_S1048576x16_S1048576x16_S1048576x16_S1048576x16_S1048576x16_S1048576x112_d1
      (ix2 r k) 4 (Nat.lt_of_lt_of_eq (by decide : 4 < 7) rfl) S1048576x16 (val_main_v3 (F := Ideal) x0) rfl rfl 64 rfl (ix2 r j) (fun b hb => by
        match b, hb with
        | ⟨0, _⟩, _ => rfl
        | ⟨1, _⟩, hb => exact absurd rfl hb) (by show 64 + j.val = k.val; omega)).trans ?_
    rfl
  · rw [Cert.Spec.feat_of x0 r k 5 j (by omega)]
    refine (concatenate_apply_piece (1 : Fin S1048576x112.rank) (sevenMaps x0) concatenates_S1048576x16_S1048576x16_S1048576x16_S1048576x16_S1048576x16_S1048576x16_S1048576x16_S1048576x112_d1
      (ix2 r k) 5 (Nat.lt_of_lt_of_eq (by decide : 5 < 7) rfl) S1048576x16 (val_main_v5 (F := Ideal) x0) rfl rfl 80 rfl (ix2 r j) (fun b hb => by
        match b, hb with
        | ⟨0, _⟩, _ => rfl
        | ⟨1, _⟩, hb => exact absurd rfl hb) (by show 80 + j.val = k.val; omega)).trans ?_
    rfl
  · rw [Cert.Spec.feat_of x0 r k 6 j (by omega)]
    refine (concatenate_apply_piece (1 : Fin S1048576x112.rank) (sevenMaps x0) concatenates_S1048576x16_S1048576x16_S1048576x16_S1048576x16_S1048576x16_S1048576x16_S1048576x16_S1048576x112_d1
      (ix2 r k) 6 (Nat.lt_of_lt_of_eq (by decide : 6 < 7) rfl) S1048576x16 (val_main_v11 (F := Ideal) x0) rfl rfl 96 rfl (ix2 r j) (fun b hb => by
        match b, hb with
        | ⟨0, _⟩, _ => rfl
        | ⟨1, _⟩, hb => exact absurd rfl hb) (by show 96 + j.val = k.val; omega)).trans ?_
    exact logistic_apply x0 _

/-- The two operand indices of either matrix product at row `r`, position `k`: `(r, k)` on the left, `(k, 0)` on the right. -/
theorem lidx13 (r : Fin 1048576) (k : Fin 112) : lidx_main_v13 (ix2 r (0 : Fin 1)) k = ix2 r k :=
  funext fun a => Fin.ext (by
    match a with
    | ⟨0, _⟩ => rfl
    | ⟨1, _⟩ => rfl)
theorem ridx13 (r : Fin 1048576) (k : Fin 112) : ridx_main_v13 (ix2 r (0 : Fin 1)) k = ix2 k (0 : Fin 1) :=
  funext fun a => Fin.ext (by
    match a with
    | ⟨0, _⟩ => rfl
    | ⟨1, _⟩ => rfl)
theorem lidx16 (r : Fin 1048576) (k : Fin 112) : lidx_main_v16 (ix2 r (0 : Fin 1)) k = ix2 r k :=
  funext fun a => Fin.ext (by
    match a with
    | ⟨0, _⟩ => rfl
    | ⟨1, _⟩ => rfl)
theorem ridx16 (r : Fin 1048576) (k : Fin 112) : ridx_main_v16 (ix2 r (0 : Fin 1)) k = ix2 k (0 : Fin 1) :=
  funext fun a => Fin.ext (by
    match a with
    | ⟨0, _⟩ => rfl
    | ⟨1, _⟩ => rfl)

/-- The reference's last stage is the specification. -/
theorem ref_eq_spec (x0 : (⟨S1048576x16, .f32⟩ : BufTy).Contents (Elt Ideal)) (x1 x2 : (⟨S112x1, .f32⟩ : BufTy).Contents (Elt Ideal)) :
    val_main_v18 (F := Ideal) x0 x1 x2 = Cert.Spec.G x0 x1 x2 := by
  funext i
  obtain ⟨r, q, rfl⟩ : ∃ (r : Fin 1048576) (q : Fin 2), i = ix2 r q := ⟨i 0, i 1, eq_ix2 i⟩
  unfold val_main_v18
  match q with
  | ⟨0, _⟩ =>
    refine (concatenate_pair_apply_left (1 : Fin S1048576x2.rank) _ _ concatenates_S1048576x1_S1048576x1_S1048576x2_d1
      (ix2 r (0 : Fin 2)) rfl (ix2 r (0 : Fin 1)) (fun b => by
        match b with
        | ⟨0, _⟩ => rfl
        | ⟨1, _⟩ => rfl)).trans ?_
    rw [val_main_v13_apply]
    unfold Cert.Spec.G
    rw [if_pos rfl]
    unfold Cert.Spec.sumOut
    refine Finset.sum_congr rfl fun k _ => ?_
    rw [lidx13, ridx13, feats_apply]
  | ⟨1, _⟩ =>
    refine (concatenate_pair_apply_right (1 : Fin S1048576x2.rank) _ _ concatenates_S1048576x1_S1048576x1_S1048576x2_d1
      (ix2 r (1 : Fin 2)) rfl rfl (ix2 r (0 : Fin 1)) (fun b hb => by
        match b, hb with
        | ⟨0, _⟩, _ => rfl
        | ⟨1, _⟩, hb => exact absurd rfl hb) rfl).trans ?_
    rw [val_main_v17_apply, val_main_v16_apply]
    unfold Cert.Spec.G
    rw [if_neg (fun h => Nat.one_ne_zero h)]
    unfold Cert.Spec.prodOut
    refine congrArg Ideal.exp (Finset.sum_congr rfl fun k _ => ?_)
    rw [lidx16, ridx16, val_main_v15_apply, val_main_v14_apply, feats_apply]
    rfl

end Cert.ReferenceIdeal.RefValue

end
-- ==== Proof.Claims.lean ====
/-
  The five claims.

  Both idealized programs end with their result array at ONE function of the argument arrays: the kernel's by the
  block-by-block reading of its run, the reference's by reading its operations index by index. No algebraic law is needed
  between the two sides (the same sums of the same products, the same maps), so the precondition is never opened. The three
  frames are the generated ones (the reference's is its run with the result forgotten), and the idealization rewrote no
  operation, so there is nothing to preserve.
-/
import proofs.«138635_j43276090474799_1_alg».proof.Defs
import proofs.«138635_j43276090474799_1_alg».proof.Proof.Gen.Kernel.Frame
import proofs.«138635_j43276090474799_1_alg».proof.Proof.Gen.KernelIdeal.Frame
import proofs.«138635_j43276090474799_1_alg».proof.Proof.Gen.ReferenceIdeal.Run
import proofs.«138635_j43276090474799_1_alg».proof.Proof.Gen.Pre_finite_inputs
import proofs.«138635_j43276090474799_1_alg».proof.Proof.ArrayValue
import proofs.«138635_j43276090474799_1_alg».proof.Proof.RefValue

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, the kernel's result array ends at the specification of its arguments and
    the reference's at the specification of its own: the same array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq_spec,
    (hagree c).1, (hagree c).2.1, (hagree c).2.2]

end Cert.Proof.Claims

end
-- ==== Proof.lean ====
/-
  `Cert.Claim`: a row-tiled kernel that builds seven maps of each row of `x` side by side (the entries themselves, sine,
  cosine, hyperbolic tangent, exponential, logarithm of the absolute value, logistic function), contracts them with one
  weight column, contracts the logarithms of their absolute values with another and exponentiates, against the same
  formula written with whole-array operations. On the extended reals both are one function of the three arguments
  (Proof/Spec.lean): the kernel's result array is that function block by block (Proof/BodyStore.lean, FeatureBlock.lean,
  OutputBlock.lean, BlockValue.lean, ArrayValue.lean), the reference's operation by operation (Proof/RefValue.lean); the
  claims are assembled in Proof/Claims.lean behind the witnesses of the programs' stated facts.
-/
import proofs.«138635_j43276090474799_1_alg».proof.Defs
import proofs.«138635_j43276090474799_1_alg».proof.Proof.Gen.Kernel
import proofs.«138635_j43276090474799_1_alg».proof.Proof.Gen.KernelIdeal
import proofs.«138635_j43276090474799_1_alg».proof.Proof.Gen.ReferenceIdeal
import proofs.«138635_j43276090474799_1_alg».proof.Proof.Gen.Pre_finite_inputs
import proofs.«138635_j43276090474799_1_alg».proof.Proof.Gen.KernelIdeal.Value
import proofs.«138635_j43276090474799_1_alg».proof.Proof.Gen.ReferenceIdeal.Run
import proofs.«138635_j43276090474799_1_alg».proof.Proof.Gen.ReferenceIdeal.Read
import proofs.«138635_j43276090474799_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
